-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S500000x128 : Shape := ⟨2, ![500000, 128]⟩
abbrev S500000 : Shape := ⟨1, ![500000]⟩
abbrev S2 : Shape := ⟨1, ![2]⟩
abbrev S500000x128x2 : Shape := ⟨3, ![500000, 128, 2]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000 : S_.BroadcastsInDim S500000 (![] : Fin 0 → Fin S500000.rank)
  reducesTo_S500000_S_d0 : S500000.ReducesTo [0] S_
  bcast_S_S2 : S_.BroadcastsInDim S2 (![] : Fin 0 → Fin S2.rank)
  reducesTo_S2_S_d0 : S2.ReducesTo [0] S_
  bcast_S_S500000x128x2 : S_.BroadcastsInDim S500000x128x2 (![] : Fin 0 → Fin S500000x128x2.rank)
  reducesTo_S500000x128x2_S_d0_1_2 : S500000x128x2.ReducesTo [0, 1, 2] S_

variable [Facts]

def fn_part1 {F : FTy → Type} [FloatOps F] (main_arg5 : FVec F S500000x128x2 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S500000x128x2 .f32 := Host.absf main_arg5
  let main_cst_6 : FVec F S_ .f32 := constant S_ .f32 0x7F800000#32
  let main_v20 : FVec F S500000x128x2 .f32 := broadcastInDim S500000x128x2 ![] bcast_S_S500000x128x2 main_cst_6
  let main_v21 : IVec S500000x128x2 1 := cmpf .olt main_v19 main_v20
  let main_c_7 : IVec S_ 1 := constantI S_ 1 1#1
  let main_v22 : IVec S_ 1 := (fun x v => Host.reduce IntOp.andi x v reducesTo_S500000x128x2_S_d0_1_2 h_S_) main_v21 main_c_7
  let main_v23 : IVec S_ 1 := andi main_v18 main_v22
  main_v23

def fn {F : FTy → Type} [FloatOps F] (main_arg0 : IVec S32x512 32) (main_arg1 : FVec F S500000x128 .f32) (main_arg2 : FVec F S500000 .f32) (main_arg3 : FVec F S500000x128 .f32) (main_arg4 : FVec F S2 .f32) (main_arg5 : FVec F S500000x128x2 .f32) : IVec S_ 1 :=
  let main_v0 : FVec F S500000x128 .f32 := Host.absf main_arg1
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S500000x128 .f32 := Host.absf main_arg3
  let main_cst_2 : FVec F S_ .f32 := constant S_ .f32 0x7F800000#32
  let main_v10 : FVec F S500000x128 .f32 := broadcastInDim S500000x128 ![] bcast_S_S500000x128 main_cst_2
  let main_v11 : IVec S500000x128 1 := cmpf .olt main_v9 main_v10
  let main_c_3 : IVec S_ 1 := constantI S_ 1 1#1
  let main_v12 : IVec S_ 1 := (fun x v => Host.reduce IntOp.andi x v reducesTo_S500000x128_S_d0_1 h_S_) main_v11 main_c_3
  let main_v13 : IVec S_ 1 := andi main_v8 main_v12
  let main_v14 : FVec F S2 .f32 := Host.absf main_arg4
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg5 main_v13 main_v16
-- ==== Kernel.lean ====
abbrev S32x512 : Shape := ⟨2, ![32, 512]⟩
abbrev S500000x128 : Shape := ⟨2, ![500000, 128]⟩
abbrev S500000 : Shape := ⟨1, ![500000]⟩
abbrev S2 : Shape := ⟨1, ![2]⟩
abbrev S500000x128x2 : Shape := ⟨3, ![500000, 128, 2]⟩
abbrev S500000x1 : Shape := ⟨2, ![500000, 1]⟩
abbrev S500000x256 : Shape := ⟨2, ![500000, 256]⟩
abbrev S256 : Shape := ⟨1, ![256]⟩
abbrev S_ : Shape := ⟨0, ![]⟩
abbrev S1 : Shape := ⟨1, ![1]⟩
abbrev S256x128 : Shape := ⟨2, ![256, 128]⟩
abbrev S256x1 : Shape := ⟨2, ![256, 1]⟩
abbrev S256x2 : Shape := ⟨2, ![256, 2]⟩
abbrev S4000x128 : Shape := ⟨2, ![4000, 128]⟩
abbrev S4000x1 : Shape := ⟨2, ![4000, 1]⟩
abbrev S4000x256 : Shape := ⟨2, ![4000, 256]⟩
abbrev S32x512x1 : Shape := ⟨3, ![32, 512, 1]⟩
abbrev S32x512x128 : Shape := ⟨3, ![32, 512, 128]⟩

abbrev nBuf : Space → Nat
  | .hbm => 89
  | .vmem => 11
  | .smem => 0
  | _ => 0

abbrev bufTy : (tb : Table) → Fin (tcTables nBuf tb) → BufTy
  | .hbm, ⟨0, _⟩ => ⟨S32x512, .i32⟩
  | .hbm, ⟨1, _⟩ => ⟨S500000x128, .f32⟩
  | .hbm, ⟨2, _⟩ => ⟨S500000, .f32⟩
  | .hbm, ⟨3, _⟩ => ⟨S500000x128, .f32⟩
  | .hbm, ⟨4, _⟩ => ⟨S2, .f32⟩
  | .hbm, ⟨5, _⟩ => ⟨S500000x128x2, .f32⟩
  | .hbm, ⟨6, _⟩ => ⟨S500000x1, .f32⟩
  | .hbm, ⟨7, _⟩ => ⟨S500000x256, .f32⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i1⟩
  | .hbm, ⟨41, _⟩ => ⟨S_, .i32⟩
  | .hbm, ⟨42, _⟩ => ⟨S_, .i1⟩
  | .hbm, ⟨43, _⟩ => ⟨S256, .i1⟩
  | .hbm, ⟨44, _⟩ => ⟨S256, .i1⟩
  | .hbm, ⟨45, _⟩ => ⟨S256, .i1⟩
  | .hbm, ⟨46, _⟩ => ⟨S256, .i32⟩
  | .hbm, ⟨47, _⟩ => ⟨S256, .i32⟩
  | .hbm, ⟨48, _⟩ => ⟨S256, .i32⟩
  | .hbm, ⟨49, _⟩ => ⟨S_, .i32⟩
  | .hbm, ⟨50, _⟩ => ⟨S256, .i32⟩
  | .hbm, ⟨51, _⟩ => ⟨S256, .i1⟩
  | .hbm, ⟨52, _⟩ => ⟨S1, .f32⟩
  | .hbm, ⟨53, _⟩ => ⟨S_, .f32⟩
  | .hbm, ⟨54, _⟩ => ⟨S1, .f32⟩
  | .hbm, ⟨55, _⟩ => ⟨S_, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S_, .f32⟩
  | .hbm, ⟨60, _⟩ => ⟨S256x128, .f32⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S_, .i32⟩
  | .hbm, ⟨65, _⟩ => ⟨S256, .i32⟩
  | .hbm, ⟨66, _⟩ => ⟨S256, .i32⟩
  | .hbm, ⟨67, _⟩ => ⟨S256, .i32⟩
  | .hbm, ⟨68, _⟩ => ⟨S_, .i32⟩
  | .hbm, ⟨69, _⟩ => ⟨S256, .i32⟩
  | .hbm, ⟨70, _⟩ => ⟨S256, .i1⟩
  | .hbm, ⟨71, _⟩ => ⟨S_, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S256x1, .i32⟩
  | .hbm, ⟨76, _⟩ => ⟨S256x1, .i32⟩
  | .hbm, ⟨77, _⟩ => ⟨S256x2, .i32⟩
  | .hbm, ⟨78, _⟩ => ⟨S256x128, .f32⟩
  | .hbm, ⟨79, _⟩ => ⟨S500000x128, .f32⟩
  | .hbm, ⟨80, _⟩ => ⟨S_, .i32⟩
  | .hbm, ⟨81, _⟩ => ⟨S32x512, .i32⟩
  | .hbm, ⟨82, _⟩ => ⟨S32x512, .i1⟩
  | .hbm, ⟨83, _⟩ => ⟨S_, .i32⟩
  | .hbm, ⟨84, _⟩ => ⟨S32x512, .i32⟩
  | .hbm, ⟨85, _⟩ => ⟨S32x512, .i32⟩
  | .hbm, ⟨86, _⟩ => ⟨S32x512, .i32⟩
  | .hbm, ⟨87, _⟩ => ⟨S32x512x1, .i32⟩
  | .hbm, ⟨88, _⟩ => ⟨S32x512x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S4000x256, .f32⟩
  | .local _ .vmem, ⟨7, _⟩ => ⟨S4000x256, .f32⟩
  | .local _ .vmem, ⟨8, _⟩ => ⟨S256x128, .f32⟩
  | .local _ .vmem, ⟨9, _⟩ => ⟨S4000x128, .f32⟩
  | .local _ .vmem, ⟨10, _⟩ => ⟨S4000x128, .f32⟩
  | _, _ => ⟨S32x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v4 : Ref sig .tc := ⟨.hbm, 48, rfl⟩
abbrev main_c_1 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_call2_v0 : Ref sig .tc := ⟨.hbm, 56, rfl⟩
abbrev main_call2_v1 : Ref sig .tc := ⟨.hbm, 57, rfl⟩
abbrev main_v11 : Ref sig .tc := ⟨.hbm, 58, rfl⟩
abbrev main_cst : Ref sig .tc := ⟨.hbm, 59, rfl⟩
abbrev main_v12 : Ref sig .tc := ⟨.hbm, 60, rfl⟩
abbrev main_c_2 : Ref sig .tc := ⟨.hbm, 61, rfl⟩
abbrev main_v13 : Ref sig .tc := ⟨.hbm, 62, rfl⟩
abbrev main_v14 : Ref sig .tc := ⟨.hbm, 63, rfl⟩
abbrev main_c_3 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_c_4 : Ref sig .tc := ⟨.hbm, 68, rfl⟩
abbrev main_v18 : Ref sig .tc := ⟨.hbm, 69, rfl⟩
abbrev main_v19 : Ref sig .tc := ⟨.hbm, 70, rfl⟩
abbrev main_c_5 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_6 : Ref sig .tc := ⟨.hbm, 80, rfl⟩
abbrev main_v28 : Ref sig .tc := ⟨.hbm, 81, rfl⟩
abbrev main_v29 : Ref sig .tc := ⟨.hbm, 82, rfl⟩
abbrev main_c_7 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S500000_S500000x1 : S500000.ShapeCasts S500000x1
  shapeCasts_S500000x128x2_S500000x256 : S500000x128x2.ShapeCasts S500000x256
  bcast_S_S256 : S_.BroadcastsInDim S256 (![] : Fin 0 → Fin S256.rank)
  slices_S2_S1_0 : S2.Slices ![0] S1
  shapeCasts_S1_S_ : S1.ShapeCasts S_
  slices_S2_S1_1 : S2.Slices ![1] S1
  bcast_S_S256x128 : S_.BroadcastsInDim S256x128 (![] : Fin 0 → Fin S256x128.rank)
  bcast_S256_S256x1_0 : S256.BroadcastsInDim S256x1 (![0] : Fin 1 → Fin S256x1.rank)
  concatenates_S256x1_S256x1_S256x2_d1 : Shape.Concatenates [S256x1, S256x1] S256x2 1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x128_S4000x128_0_0 : ∀ a, (![0, 0] : Fin 2 → Nat) a + S4000x128.size a ≤ S4000x128.size a
  h_S4000x128 : 0 < S4000x128.numel
  broadcasts_S4000x1_S4000x128 : S4000x1.Broadcasts S4000x128
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  scatter_S256x128_S256x2_S256_n_01_01_1_wf : ScatterDims.WF S256x128 S256x2 S256 [] [0, 1] [0, 1] 1
  dot_S4000x256_S256x128_S4000x128_1_0_0_1_n_n_wf : DotDims.WF S4000x256 S256x128 S4000x128 [1] [0] [0] [1] [] []
  gather_S500000x128_S32x512x1_S32x512x128_2_0_n_n_0_2_1128_wf : GatherDims.WF S500000x128 S32x512x1 S32x512x128 [2] [0] [] [0] [] 2 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S500000x1.size a
  hwx0_2 : ∀ i : grid0.Coords, EltTy.bits .f32 = 32 ∨ (Rect.block (s := S500000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S500000x256.size a
  hwx0_3 : ∀ i : grid0.Coords, EltTy.bits .f32 = 32 ∨ (Rect.block (s := S500000x256) S4000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S500000x128.size a
  hwx0_5 : ∀ i : grid0.Coords, EltTy.bits .f32 = 32 ∨ (Rect.block (s := S500000x128) S4000x128.size (cc0_transform_5 i) (hinb0_5 i)).WholeWords (EltTy.packing .f32)

variable [Facts₀]

def scatter_S256x128_S256x2_S256_n_01_01_1 : ScatterDims S256x128 S256x2 S256 where
  updateWindowDims := []
  insertedWindowDims := [0, 1]
  scatterDimsToOperandDims := [0, 1]
  indexVectorDim := 1
  wf := scatter_S256x128_S256x2_S256_n_01_01_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S500000x128_S32x512x1_S32x512x128_2_0_n_n_0_2_1128 : GatherDims S500000x128 S32x512x1 S32x512x128 where
  offsetDims := [2]
  collapsedSliceDims := [0]
  operandBatchingDims := []
  startIndicesBatchingDims := []
  startIndexMap := [0]
  indexVectorDim := 2
  sliceSizes := ![1, 128]
  wf := gather_S500000x128_S32x512x1_S32x512x128_2_0_n_n_0_2_1128_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v26) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512 : Shape := ⟨2, ![32, 512]⟩
abbrev S500000x128 : Shape := ⟨2, ![500000, 128]⟩
abbrev S500000 : Shape := ⟨1, ![500000]⟩
abbrev S2 : Shape := ⟨1, ![2]⟩
abbrev S500000x128x2 : Shape := ⟨3, ![500000, 128, 2]⟩
abbrev S_ : Shape := ⟨0, ![]⟩
abbrev S500000x1 : Shape := ⟨2, ![500000, 1]⟩
abbrev S1x1x2 : Shape := ⟨3, ![1, 1, 2]⟩
abbrev S32x512x1 : Shape := ⟨3, ![32, 512, 1]⟩
abbrev S32x512x128 : Shape := ⟨3, ![32, 512, 128]⟩

abbrev nBuf : Space → Nat
  | .hbm => 33
  | .vmem => 0
  | .smem => 0
  | _ => 0

abbrev bufTy : (tb : Table) → Fin (tcTables nBuf tb) → BufTy
  | .hbm, ⟨0, _⟩ => ⟨S32x512, .i32⟩
  | .hbm, ⟨1, _⟩ => ⟨S500000x128, .f32⟩
  | .hbm, ⟨2, _⟩ => ⟨S500000, .f32⟩
  | .hbm, ⟨3, _⟩ => ⟨S500000x128, .f32⟩
  | .hbm, ⟨4, _⟩ => ⟨S2, .f32⟩
  | .hbm, ⟨5, _⟩ => ⟨S500000x128x2, .f32⟩
  | .hbm, ⟨6, _⟩ => ⟨S500000, .f32⟩
  | .hbm, ⟨7, _⟩ => ⟨S500000, .f32⟩
  | .hbm, ⟨8, _⟩ => ⟨S_, .f32⟩
  | .hbm, ⟨9, _⟩ => ⟨S500000, .f32⟩
  | .hbm, ⟨10, _⟩ => ⟨S500000, .f32⟩
  | .hbm, ⟨11, _⟩ => ⟨S_, .f32⟩
  | .hbm, ⟨12, _⟩ => ⟨S500000, .f32⟩
  | .hbm, ⟨13, _⟩ => ⟨S500000, .f32⟩
  | .hbm, ⟨14, _⟩ => ⟨S500000x1, .f32⟩
  | .hbm, ⟨15, _⟩ => ⟨S500000x128, .f32⟩
  | .hbm, ⟨16, _⟩ => ⟨S500000x128, .f32⟩
  | .hbm, ⟨17, _⟩ => ⟨S500000x128, .f32⟩
  | .hbm, ⟨18, _⟩ => ⟨S1x1x2, .f32⟩
  | .hbm, ⟨19, _⟩ => ⟨S500000x128x2, .f32⟩
  | .hbm, ⟨20, _⟩ => ⟨S500000x128x2, .f32⟩
  | .hbm, ⟨21, _⟩ => ⟨S_, .f32⟩
  | .hbm, ⟨22, _⟩ => ⟨S500000x128, .f32⟩
  | .hbm, ⟨23, _⟩ => ⟨S500000x128, .f32⟩
  | .hbm, ⟨24, _⟩ => ⟨S_, .i32⟩
  | .hbm, ⟨25, _⟩ => ⟨S32x512, .i32⟩
  | .hbm, ⟨26, _⟩ => ⟨S32x512, .i1⟩
  | .hbm, ⟨27, _⟩ => ⟨S_, .i32⟩
  | .hbm, ⟨28, _⟩ => ⟨S32x512, .i32⟩
  | .hbm, ⟨29, _⟩ => ⟨S32x512, .i32⟩
  | .hbm, ⟨30, _⟩ => ⟨S32x512, .i32⟩
  | .hbm, ⟨31, _⟩ => ⟨S32x512x1, .i32⟩
  | .hbm, ⟨32, _⟩ => ⟨S32x512x128, .f32⟩
  | _, _ => ⟨S32x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S2_S1x1x2_2 : S2.BroadcastsInDim S1x1x2 (![2] : Fin 1 → Fin S1x1x2.rank)
  bcast_S1x1x2_S500000x128x2_0_1_2 : S1x1x2.BroadcastsInDim S500000x128x2 (![0, 1, 2] : Fin 3 → Fin S500000x128x2.rank)
  reducesTo_S500000x128x2_S500000x128_d2 : S500000x128x2.ReducesTo [2] S500000x128
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  gather_S500000x128_S32x512x1_S32x512x128_2_0_n_n_0_2_1128_wf : GatherDims.WF S500000x128 S32x512x1 S32x512x128 [2] [0] [] [0] [] 2 ![1, 128]

variable [Facts₀]

def gather_S500000x128_S32x512x1_S32x512x128_2_0_n_n_0_2_1128 : GatherDims S500000x128 S32x512x1 S32x512x128 where
  offsetDims := [2]
  collapsedSliceDims := [0]
  operandBatchingDims := []
  startIndicesBatchingDims := []
  startIndexMap := [0]
  indexVectorDim := 2
  sliceSizes := ![1, 128]
  wf := gather_S500000x128_S32x512x1_S32x512x128_2_0_n_n_0_2_1128_wf

class Facts : Prop extends Facts₀ where

variable [Facts]
-- ==== Proof.Spec.lean ====
/-
  The composed embedding table, as one function of the five float arguments.

  For a vocabulary row v and a feature d the table holds

      sw[v,d] · σ(mask[v]) + aw[v,d] + (kb[v,d,0] · atten[0] + kb[v,d,1] · atten[1]),

  with σ x = 1 / (1 + e^(-x)) on the extended reals. The kernel reaches the last bracket as a product of the
  flattened knowledge-base rows (v, 2d + j) ↦ kb[v,d,j] with a 256 × 128 matrix that holds atten[r mod 2] at
  (r, r / 2) and zero elsewhere: `composed` is that form, over the arrays as the kernel's region finds them, and
  `composed_eq_weight` (module Algebra) joins the two.
-/
import Idealize.ShloMosaic.PureOps.Ideal
import Idealize.ShloMosaic.Lib.ValueIdx

noncomputable section

namespace Cert.Compose

open Idealize.ShloMosaic Idealize.ShloMosaic.ValueIdx

/-- The table's entry at row `v`, feature `d`. -/
def weightAt (sw : (⟨2, ![500000, 128]⟩ : Shape).Idx → EReal) (mask : (⟨1, ![500000]⟩ : Shape).Idx → EReal)
    (aw : (⟨2, ![500000, 128]⟩ : Shape).Idx → EReal) (atten : (⟨1, ![2]⟩ : Shape).Idx → EReal)
    (kb : (⟨3, ![500000, 128, 2]⟩ : Shape).Idx → EReal) (v : Fin 500000) (d : Fin 128) : EReal :=
  (sw (ix2 v d) * Ideal.logistic (mask (ix1 v)) + aw (ix2 v d))
    + (kb (ix3 v d (0 : Fin 2)) * atten (ix1 (0 : Fin 2)) + kb (ix3 v d (1 : Fin 2)) * atten (ix1 (1 : Fin 2)))

/-- The table as an array. -/
def weight (sw : (⟨2, ![500000, 128]⟩ : Shape).Idx → EReal) (mask : (⟨1, ![500000]⟩ : Shape).Idx → EReal)
    (aw : (⟨2, ![500000, 128]⟩ : Shape).Idx → EReal) (atten : (⟨1, ![2]⟩ : Shape).Idx → EReal)
    (kb : (⟨3, ![500000, 128, 2]⟩ : Shape).Idx → EReal) : (⟨2, ![500000, 128]⟩ : Shape).Idx → EReal :=
  fun i => weightAt sw mask aw atten kb (i 0) (i 1)

theorem weight_ix2 (sw : (⟨2, ![500000, 128]⟩ : Shape).Idx → EReal) (mask : (⟨1, ![500000]⟩ : Shape).Idx → EReal)
    (aw : (⟨2, ![500000, 128]⟩ : Shape).Idx → EReal) (atten : (⟨1, ![2]⟩ : Shape).Idx → EReal)
    (kb : (⟨3, ![500000, 128, 2]⟩ : Shape).Idx → EReal) (v : Fin 500000) (d : Fin 128) :
    weight sw mask aw atten kb (ix2 v d) = weightAt sw mask aw atten kb v d := rfl

/-- The kernel's arrangement, entry (v, d): the gate read off a one-column array, the knowledge-base term a product of
    the flattened rows with a 256 × 128 matrix. -/
def composedAt (sw aw : (⟨2, ![500000, 128]⟩ : Shape).Idx → EReal) (mask2 : (⟨2, ![500000, 1]⟩ : Shape).Idx → EReal)
    (kbflat : (⟨2, ![500000, 256]⟩ : Shape).Idx → EReal) (proj : (⟨2, ![256, 128]⟩ : Shape).Idx → EReal)
    (v : Fin 500000) (d : Fin 128) : EReal :=
  (sw (ix2 v d) * Ideal.logistic (mask2 (ix2 v (0 : Fin 1))) + aw (ix2 v d))
    + ∑ k : Fin 256, kbflat (ix2 v k) * proj (ix2 k d)

/-- The kernel's arrangement as an array. -/
def composed (sw aw : (⟨2, ![500000, 128]⟩ : Shape).Idx → EReal) (mask2 : (⟨2, ![500000, 1]⟩ : Shape).Idx → EReal)
    (kbflat : (⟨2, ![500000, 256]⟩ : Shape).Idx → EReal) (proj : (⟨2, ![256, 128]⟩ : Shape).Idx → EReal) :
    (⟨2, ![500000, 128]⟩ : Shape).Idx → EReal :=
  fun i => composedAt sw aw mask2 kbflat proj (i 0) (i 1)

theorem composed_ix2 (sw aw : (⟨2, ![500000, 128]⟩ : Shape).Idx → EReal) (mask2 : (⟨2, ![500000, 1]⟩ : Shape).Idx → EReal)
    (kbflat : (⟨2, ![500000, 256]⟩ : Shape).Idx → EReal) (proj : (⟨2, ![256, 128]⟩ : Shape).Idx → EReal)
    (v : Fin 500000) (d : Fin 128) :
    composed sw aw mask2 kbflat proj (ix2 v d) = composedAt sw aw mask2 kbflat proj v d := rfl

end Cert.Compose

end
-- ==== Proof.RefSpec.lean ====
/-
  The reference's table is the specification's `weight`.

  The reference builds, one host operation at a time, the array whose entry at (v, d) is

      sw[v,d] · (1 / (1 + e^(-mask[v]))) + aw[v,d] + (0 + (atten[0] · kb[v,d,0] + atten[1] · kb[v,d,1])),

  the gate broadcast along the feature axis, atten broadcast along the rows and the features, and the last bracket a
  sum over the axis of size 2 started from zero. Read at an index this is the specification's entry: the quotient
  1 / (1 + e^(-x)) is the logistic function by definition, the constant's word reads as 1, the zero start drops out,
  and each product is commuted.
-/
import proofs.«112718_j79628693667922_1_alg».proof.Proof.Spec
import proofs.«112718_j79628693667922_1_alg».proof.Proof.Gen.ReferenceIdeal.Read

noncomputable section

namespace Cert.ReferenceIdeal.RefSpec

open Idealize.ShloMosaic Idealize.ShloMosaic.ValueIdx Cert.ReferenceIdeal Cert.ReferenceIdeal.Read

/-- The word of the float 1.0 reads as the extended real 1. -/
theorem ofBits_one_f32 : Ideal.ofBits .f32 0x3F800000#32 = 1 := by
  simp [Ideal.ofBits, Ideal.ieee, -EReal.coe_mul]; norm_num

/-- The gate at (v, d) is read from the mask's entry v: the two broadcasts drop the feature coordinate. -/
theorem gate_idx (v : Fin 500000) (d : Fin 128) :
    idx_main_v6 (idx_main_v7 (ix2 v d)) = ix1 v :=
  funext fun a => Fin.ext (by match a with | ⟨0, _⟩ => rfl)

/-- The reduced axis' k-th summand at (v, d) sits at (v, d, k). -/
theorem kb_idx (v : Fin 500000) (d : Fin 128) (k : Fin 2) :
    idx_main_v13 (ix2 v d) k = ix3 v d k :=
  funext fun a => Fin.ext (by match a with | ⟨0, _⟩ => rfl | ⟨1, _⟩ => rfl | ⟨2, _⟩ => rfl)

/-- The broadcast of atten at (v, d, k) is read from atten's entry k. -/
theorem atten_idx (v : Fin 500000) (d : Fin 128) (k : Fin 2) :
    idx_main_v10 (idx_main_v11 (ix3 v d k)) = ix1 k :=
  funext fun a => Fin.ext (by match a with | ⟨0, _⟩ => rfl)

theorem ref_weight (x1 : (⟨Cert.ReferenceIdeal.S500000x128, .f32⟩ : BufTy).Contents (Elt Ideal)) (x2 : (⟨Cert.ReferenceIdeal.S500000, .f32⟩ : BufTy).Contents (Elt Ideal))
    (x3 : (⟨Cert.ReferenceIdeal.S500000x128, .f32⟩ : BufTy).Contents (Elt Ideal)) (x4 : (⟨Cert.ReferenceIdeal.S2, .f32⟩ : BufTy).Contents (Elt Ideal))
    (x5 : (⟨Cert.ReferenceIdeal.S500000x128x2, .f32⟩ : BufTy).Contents (Elt Ideal)) :
    Cert.ReferenceIdeal.Read.val_main_v14 (F := Ideal) x1 x2 x3 x4 x5 = Cert.Compose.weight x1 x2 x3 x4 x5 := by
  funext i
  obtain ⟨v, d, rfl⟩ : ∃ (v : Fin 500000) (d : Fin 128), i = ix2 v d := ⟨i 0, i 1, eq_ix2 i⟩
  rw [Cert.Compose.weight_ix2, val_main_v14_apply, val_main_v9_apply, val_main_v8_apply, val_main_v7_apply,
    val_main_v6_apply, val_main_v5_apply, val_main_v4_apply, val_main_cst_0_apply, val_main_v3_apply,
    val_main_v2_apply, val_main_cst_apply, val_main_v1_apply, val_main_v0_apply, val_main_v13_apply,
    val_main_cst_1_apply, Fin.sum_univ_two]
  simp only [val_main_v12_apply, val_main_v11_apply, val_main_v10_apply, gate_idx, kb_idx, atten_idx,
    Ideal.ofBits_def, Ideal.addf_def, Ideal.mulf_def, Ideal.hostDivf_def, Ideal.hostUnary_exp_def,
    Ideal.hostNegf_def, Ideal.negf_def, ofBits_one_f32, Ideal.ofBits_zero_f32, zero_add]
  unfold Cert.Compose.weightAt Ideal.logistic
  rw [mul_comm (x4 (ix1 (0 : Fin 2))), mul_comm (x4 (ix1 (1 : Fin 2)))]

end Cert.ReferenceIdeal.RefSpec

end
-- ==== Proof.Algebra.lean ====
/-
  The two arrangements of the composed embedding table agree.

  The kernel's knowledge-base term at (v, d) is the sum over r < 256 of kbflat[v,r] · proj[r,d], where
  kbflat[v,r] = kb[v, r / 2, r mod 2] and proj[r,d] = atten[r mod 2] if r / 2 = d, else 0. Every term with
  r / 2 ≠ d is x · 0 = 0, for every extended real x (the infinities included), so the sum has at most two
  nonzero terms, r = 2d and r = 2d + 1, and they are kb[v,d,0] · atten[0] and kb[v,d,1] · atten[1]: the
  reference's sum over the axis of size 2.
-/
import proofs.«112718_j79628693667922_1_alg».proof.Proof.Spec

noncomputable section

namespace Cert.Compose

open Idealize.ShloMosaic Idealize.ShloMosaic.ValueIdx

/-- One term of the flattened product, at the row r = 2q + j: the matrix entry there is atten[j] and the flattened
    entry is kb[v,q,j]. -/
theorem flat_term
    (kbflat : (⟨2, ![500000, 256]⟩ : Shape).Idx → EReal) (proj : (⟨2, ![256, 128]⟩ : Shape).Idx → EReal)
    (atten : (⟨1, ![2]⟩ : Shape).Idx → EReal) (kb : (⟨3, ![500000, 128, 2]⟩ : Shape).Idx → EReal)
    (hkb : ∀ (v : Fin 500000) (r : Fin 256), kbflat (ix2 v r)
        = kb (ix3 v (⟨r.val / 2, by have := r.isLt; omega⟩ : Fin 128) (⟨r.val % 2, Nat.mod_lt _ (by decide)⟩ : Fin 2)))
    (hproj : ∀ (k : Fin 256) (q : Fin 128), proj (ix2 k q)
        = if k.val / 2 = q.val then atten (ix1 (⟨k.val % 2, Nat.mod_lt _ (by decide)⟩ : Fin 2)) else 0)
    (v : Fin 500000) (k : Fin 256) (q : Fin 128) (j : Fin 2) (hk : k.val = 2 * q.val + j.val) :
    kbflat (ix2 v k) * proj (ix2 k q) = kb (ix3 v q j) * atten (ix1 j) := by
  have hj := j.isLt
  have hdiv : k.val / 2 = q.val := by omega
  have hmod : k.val % 2 = j.val := by omega
  have eq : (⟨k.val / 2, by have := k.isLt; omega⟩ : Fin 128) = q := Fin.ext hdiv
  have ej : (⟨k.val % 2, Nat.mod_lt _ (by decide)⟩ : Fin 2) = j := Fin.ext hmod
  rw [hkb, hproj, if_pos hdiv, eq, ej]

/-- A term of the flattened product off the two rows 2q and 2q + 1 vanishes: its matrix entry is zero. -/
theorem flat_term_off
    (kbflat : (⟨2, ![500000, 256]⟩ : Shape).Idx → EReal) (proj : (⟨2, ![256, 128]⟩ : Shape).Idx → EReal)
    (atten : (⟨1, ![2]⟩ : Shape).Idx → EReal)
    (hproj : ∀ (k : Fin 256) (q : Fin 128), proj (ix2 k q)
        = if k.val / 2 = q.val then atten (ix1 (⟨k.val % 2, Nat.mod_lt _ (by decide)⟩ : Fin 2)) else 0)
    (v : Fin 500000) (k : Fin 256) (q : Fin 128) (hk : k.val / 2 ≠ q.val) :
    kbflat (ix2 v k) * proj (ix2 k q) = 0 := by
  rw [hproj, if_neg hk, mul_zero]

/-- The flattened product is the sum over the axis of size 2. -/
theorem flat_sum
    (kbflat : (⟨2, ![500000, 256]⟩ : Shape).Idx → EReal) (proj : (⟨2, ![256, 128]⟩ : Shape).Idx → EReal)
    (atten : (⟨1, ![2]⟩ : Shape).Idx → EReal) (kb : (⟨3, ![500000, 128, 2]⟩ : Shape).Idx → EReal)
    (hkb : ∀ (v : Fin 500000) (r : Fin 256), kbflat (ix2 v r)
        = kb (ix3 v (⟨r.val / 2, by have := r.isLt; omega⟩ : Fin 128) (⟨r.val % 2, Nat.mod_lt _ (by decide)⟩ : Fin 2)))
    (hproj : ∀ (k : Fin 256) (q : Fin 128), proj (ix2 k q)
        = if k.val / 2 = q.val then atten (ix1 (⟨k.val % 2, Nat.mod_lt _ (by decide)⟩ : Fin 2)) else 0)
    (v : Fin 500000) (d : Fin 128) :
    ∑ k : Fin 256, kbflat (ix2 v k) * proj (ix2 k d)
      = kb (ix3 v d (0 : Fin 2)) * atten (ix1 (0 : Fin 2)) + kb (ix3 v d (1 : Fin 2)) * atten (ix1 (1 : Fin 2)) := by
  have hd := d.isLt
  have hne : (⟨2 * d.val, by omega⟩ : Fin 256) ≠ ⟨2 * d.val + 1, by omega⟩ := by
    intro h
    have := congrArg Fin.val h
    simp at this
  rw [Finset.sum_eq_add (⟨2 * d.val, by omega⟩ : Fin 256) (⟨2 * d.val + 1, by omega⟩ : Fin 256) hne
      (fun c _ hc => by
        refine flat_term_off kbflat proj atten hproj v c d ?_
        intro hq
        have h1 : c.val ≠ 2 * d.val := fun h => hc.1 (Fin.ext h)
        have h2 : c.val ≠ 2 * d.val + 1 := fun h => hc.2 (Fin.ext h)
        omega)
      (fun h => absurd (Finset.mem_univ _) h) (fun h => absurd (Finset.mem_univ _) h)]
  rw [flat_term kbflat proj atten kb hkb hproj v ⟨2 * d.val, by omega⟩ d (0 : Fin 2) (by simp),
    flat_term kbflat proj atten kb hkb hproj v ⟨2 * d.val + 1, by omega⟩ d (1 : Fin 2) (by simp)]

theorem composedAt_eq_weightAt
    (sw aw : (⟨2, ![500000, 128]⟩ : Shape).Idx → EReal) (mask2 : (⟨2, ![500000, 1]⟩ : Shape).Idx → EReal)
    (kbflat : (⟨2, ![500000, 256]⟩ : Shape).Idx → EReal) (proj : (⟨2, ![256, 128]⟩ : Shape).Idx → EReal)
    (mask : (⟨1, ![500000]⟩ : Shape).Idx → EReal) (atten : (⟨1, ![2]⟩ : Shape).Idx → EReal)
    (kb : (⟨3, ![500000, 128, 2]⟩ : Shape).Idx → EReal)
    (hmask : ∀ (v : Fin 500000) (z : Fin 1), mask2 (ix2 v z) = mask (ix1 v))
    (hkb : ∀ (v : Fin 500000) (r : Fin 256), kbflat (ix2 v r)
        = kb (ix3 v (⟨r.val / 2, by have := r.isLt; omega⟩ : Fin 128) (⟨r.val % 2, Nat.mod_lt _ (by decide)⟩ : Fin 2)))
    (hproj : ∀ (k : Fin 256) (q : Fin 128), proj (ix2 k q)
        = if k.val / 2 = q.val then atten (ix1 (⟨k.val % 2, Nat.mod_lt _ (by decide)⟩ : Fin 2)) else 0)
    (v : Fin 500000) (d : Fin 128) :
    composedAt sw aw mask2 kbflat proj v d = weightAt sw mask aw atten kb v d := by
  unfold composedAt weightAt
  rw [hmask v (0 : Fin 1), flat_sum kbflat proj atten kb hkb hproj v d]

theorem composed_eq_weight
    (sw aw : (⟨2, ![500000, 128]⟩ : Shape).Idx → EReal) (mask2 : (⟨2, ![500000, 1]⟩ : Shape).Idx → EReal)
    (kbflat : (⟨2, ![500000, 256]⟩ : Shape).Idx → EReal) (proj : (⟨2, ![256, 128]⟩ : Shape).Idx → EReal)
    (mask : (⟨1, ![500000]⟩ : Shape).Idx → EReal) (atten : (⟨1, ![2]⟩ : Shape).Idx → EReal)
    (kb : (⟨3, ![500000, 128, 2]⟩ : Shape).Idx → EReal)
    (hmask : ∀ (v : Fin 500000) (z : Fin 1), mask2 (ix2 v z) = mask (ix1 v))
    (hkb : ∀ (v : Fin 500000) (r : Fin 256), kbflat (ix2 v r)
        = kb (ix3 v (⟨r.val / 2, by have := r.isLt; omega⟩ : Fin 128) (⟨r.val % 2, Nat.mod_lt _ (by decide)⟩ : Fin 2)))
    (hproj : ∀ (k : Fin 256) (q : Fin 128), proj (ix2 k q)
        = if k.val / 2 = q.val then atten (ix1 (⟨k.val % 2, Nat.mod_lt _ (by decide)⟩ : Fin 2)) else 0) :
    composed sw aw mask2 kbflat proj = weight sw mask aw atten kb := by
  funext i
  obtain ⟨v, d, rfl⟩ : ∃ (v : Fin 500000) (d : Fin 128), i = ix2 v d := ⟨i 0, i 1, eq_ix2 i⟩
  rw [composed_ix2, weight_ix2]
  exact composedAt_eq_weightAt sw aw mask2 kbflat proj mask atten kb hmask hkb hproj v d

end Cert.Compose

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Payload.lean ====
/-
  One grid point of the kernel, read at an entry of its output block.
-/
import proofs.«112718_j79628693667922_1_alg».proof.Proof.Gen.KernelIdeal.Frame
import proofs.«112718_j79628693667922_1_alg».proof.Proof.LibMatmul
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx Idealize.ShloMosaic.TcCoe

theorem hz : (![0, 0] : Fin 2 → Nat) = fun _ => 0 := funext fun a => by fin_cases a <;> rfl

theorem out_apply (x0 x1 : Vec Ideal S4000x128 .f32) (x2 : Vec Ideal S4000x1 .f32) (x3 : Vec Ideal S4000x256 .f32)
    (x4 : Vec Ideal S256x128 .f32) (p : Fin 4000) (q : Fin 128) :
    (out0_5 x0 x1 x2 x3 x4 : S4000x128.Idx → EReal) (ix2 p q)
      = (x0 (ix2 p q) * Ideal.logistic (x2 (ix2 p (0 : Fin 1))) + x1 (ix2 p q)) + ∑ k : Fin 256, x3 (ix2 p k) * x4 (ix2 k q) := by
  unfold out0_5
  rw [View.canon_unit_zero hz]
  simp only [View.ld_unit_zero (S := S4000x1) hz, View.ld_unit_zero (S := S4000x256) hz, View.ld_unit_zero (S := S256x128) hz,
    View.ld_unit_zero (S := S4000x128) hz]
  unfold k0_pay1
  rw [shapeCast_self, shapeCast_self, shapeCast_self, addf_apply, addf_apply, mulf_apply]
  refine congrArg₂ (· + ·) (congrArg₂ (· + ·) (congrArg (x0 (ix2 p q) * ·) ?_) rfl) ?_
  · refine (broadcastTo_apply _ broadcasts_S4000x1_S4000x128 (ix2 p q) (ix2 p (0 : Fin 1)) fun a => ?_).trans rfl
    match a with
    | ⟨0, _⟩ => show p.val = if (4000 : Nat) = 1 then 0 else p.val; rw [if_neg (by decide)]
    | ⟨1, _⟩ => show 0 = if (1 : Nat) = 1 then 0 else q.val; rw [if_pos rfl]
  · exact Cert.Matmul.matmul_plain_apply none x3 x4 p q

end Cert.KernelIdeal.Payload

end
-- ==== Proof.Blocks.lean ====
/-
  From the kernel's blocks to its whole output array.

  Grid point t (of 125) stages rows [4000 t, 4000 t + 4000) of sw, aw, the one-column gate array and the flattened
  knowledge base, the whole 256 × 128 matrix, and writes back rows [4000 t, 4000 t + 4000) of the output. Entry (p, q) of
  the block it writes is the kernel's arrangement of the table at row 4000 t + p, and the 125 blocks tile the array, so the
  output array ends as that arrangement of the arrays the region finds.
-/
import proofs.«112718_j79628693667922_1_alg».proof.Proof.Gen.KernelIdeal.Frame
import proofs.«112718_j79628693667922_1_alg».proof.Proof.Spec
import proofs.«112718_j79628693667922_1_alg».proof.Proof.Payload
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The printed index maps over the grid: the four row-blocked inputs and the output sit at block (t, 0), the matrix
    at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 125 := lt_of_lt_of_eq t.isLt N_0

/-- Entry (p, q) of point t's block of sw is entry (4000 t + p, q) of the array. -/
theorem sw_blk (c : Dev nD) (t : Fin cfg0.N) (p : Fin 4000) (q : Fin 128) (r : Fin 500000) (hr : r.val = t.val * 4000 + p.val) :
    iblk m c 0 t (ix2 p q) = V m c main_arg1 (ix2 r q) := by
  obtain ⟨e0, e1, -⟩ := idx_facts t
  show V m c main_arg1 (((cfg0.win 0).blk t).view.emb (ix2 p q)) = V m c main_arg1 (ix2 r q)
  refine congrArg (V m c main_arg1) (funext fun a => Fin.ext ?_)
  match a with
  | ⟨0, _⟩ => show win0_0.index t (0 : Fin 2) * 4000 + 1 * p.val = r.val; omega
  | ⟨1, _⟩ => show win0_0.index t (1 : Fin 2) * 128 + 1 * q.val = q.val; omega

/-- Entry (p, q) of point t's block of aw is entry (4000 t + p, q) of the array. -/
theorem aw_blk (c : Dev nD) (t : Fin cfg0.N) (p : Fin 4000) (q : Fin 128) (r : Fin 500000) (hr : r.val = t.val * 4000 + p.val) :
    iblk m c 1 t (ix2 p q) = V m c main_arg3 (ix2 r q) := by
  obtain ⟨-, -, e0, e1, -⟩ := idx_facts t
  show V m c main_arg3 (((cfg0.win 1).blk t).view.emb (ix2 p q)) = V m c main_arg3 (ix2 r q)
  refine congrArg (V m c main_arg3) (funext fun a => Fin.ext ?_)
  match a with
  | ⟨0, _⟩ => show win0_1.index t (0 : Fin 2) * 4000 + 1 * p.val = r.val; omega
  | ⟨1, _⟩ => show win0_1.index t (1 : Fin 2) * 128 + 1 * q.val = q.val; omega

/-- Entry (p, 0) of point t's block of the gate column is entry (4000 t + p, 0) of the array. -/
theorem gate_blk (c : Dev nD) (t : Fin cfg0.N) (p : Fin 4000) (z : Fin 1) (r : Fin 500000) (hr : r.val = t.val * 4000 + p.val) :
    iblk m c 2 t (ix2 p z) = V m c main_v0 (ix2 r z) := by
  obtain ⟨-, -, -, -, e0, e1, -⟩ := idx_facts t
  show V m c main_v0 (((cfg0.win 2).blk t).view.emb (ix2 p z)) = V m c main_v0 (ix2 r z)
  refine congrArg (V m c main_v0) (funext fun a => Fin.ext ?_)
  match a with
  | ⟨0, _⟩ => show win0_2.index t (0 : Fin 2) * 4000 + 1 * p.val = r.val; omega
  | ⟨1, _⟩ => show win0_2.index t (1 : Fin 2) * 1 + 1 * z.val = z.val; omega

/-- Entry (p, k) of point t's block of the flattened knowledge base is entry (4000 t + p, k) of the array. -/
theorem kb_blk (c : Dev nD) (t : Fin cfg0.N) (p : Fin 4000) (k : Fin 256) (r : Fin 500000) (hr : r.val = t.val * 4000 + p.val) :
    iblk m c 3 t (ix2 p k) = V m c main_v1 (ix2 r k) := by
  obtain ⟨-, -, -, -, -, -, e0, e1, -⟩ := idx_facts t
  show V m c main_v1 (((cfg0.win 3).blk t).view.emb (ix2 p k)) = V m c main_v1 (ix2 r k)
  refine congrArg (V m c main_v1) (funext fun a => Fin.ext ?_)
  match a with
  | ⟨0, _⟩ => show win0_3.index t (0 : Fin 2) * 4000 + 1 * p.val = r.val; omega
  | ⟨1, _⟩ => show win0_3.index t (1 : Fin 2) * 256 + 1 * k.val = k.val; omega

/-- Every point's block of the matrix is the whole matrix. -/
theorem proj_blk (c : Dev nD) (t : Fin cfg0.N) (k : Fin 256) (q : Fin 128) :
    iblk m c 4 t (ix2 k q) = V m c main_v26 (ix2 k q) := by
  obtain ⟨-, -, -, -, -, -, -, -, e0, e1, -⟩ := idx_facts t
  show V m c main_v26 (((cfg0.win 4).blk t).view.emb (ix2 k q)) = V m c main_v26 (ix2 k q)
  refine congrArg (V m c main_v26) (funext fun a => Fin.ext ?_)
  match a with
  | ⟨0, _⟩ => show win0_4.index t (0 : Fin 2) * 256 + 1 * k.val = k.val; omega
  | ⟨1, _⟩ => show win0_4.index t (1 : Fin 2) * 128 + 1 * q.val = q.val; omega

/-- WHAT POINT t WRITES BACK is block t of the kernel's arrangement of the arrays the region finds. -/
theorem flushed_eq (c : Dev nD) (t : Fin cfg0.N) :
    (dats m 0 c).flushed 5 t = ((cfg0.win 5).blk t).view.read (Elt Ideal)
      (Cert.Compose.composed (V m c main_arg1) (V m c main_arg3) (V m c main_v0) (V m c main_v1) (V m c main_v26)) := by
  show (cfg0.win 5).cut (grid0.coords t) ((dats m 0 c).after 5 t) = _
  rw [after0_5]
  funext j
  obtain ⟨p, q, rfl⟩ : ∃ (p : Fin 4000) (q : Fin 128), j = ix2 p q := ⟨j 0, j 1, eq_ix2 j⟩
  have ht := point_lt t
  have hp : p.val < 4000 := p.isLt
  obtain ⟨-, -, -, -, -, -, -, -, -, -, e0, e1⟩ := idx_facts t
  have hemb : ((cfg0.win 5).blk t).view.emb (ix2 p q) = ix2 (⟨t.val * 4000 + p.val, by omega⟩ : Fin 500000) q := by
    funext a; apply Fin.ext
    match a with
    | ⟨0, _⟩ => show win0_5.index t (0 : Fin 2) * 4000 + 1 * p.val = t.val * 4000 + p.val; omega
    | ⟨1, _⟩ => show win0_5.index t (1 : Fin 2) * 128 + 1 * q.val = q.val; omega
  show out0_5 (iblk m c 0 t) (iblk m c 1 t) (iblk m c 2 t) (iblk m c 3 t) (iblk m c 4 t) (ix2 p q)
    = Cert.Compose.composed (V m c main_arg1) (V m c main_arg3) (V m c main_v0) (V m c main_v1) (V m c main_v26) (((cfg0.win 5).blk t).view.emb (ix2 p q))
  rw [hemb, Cert.Compose.composed_ix2]
  refine (Cert.KernelIdeal.Payload.out_apply (iblk m c 0 t) (iblk m c 1 t) (iblk m c 2 t) (iblk m c 3 t) (iblk m c 4 t) p q).trans ?_
  unfold Cert.Compose.composedAt
  rw [sw_blk m c t p q ⟨t.val * 4000 + p.val, by omega⟩ rfl, aw_blk m c t p q ⟨t.val * 4000 + p.val, by omega⟩ rfl,
    gate_blk m c t p (0 : Fin 1) ⟨t.val * 4000 + p.val, by omega⟩ rfl]
  refine congrArg _ (Finset.sum_congr rfl fun k _ => ?_)
  rw [kb_blk m c t p k ⟨t.val * 4000 + p.val, by omega⟩ rfl, proj_blk m c t k q]

/-- An index of the output array is in point t's block iff each coordinate is in the block's range on its axis. -/
theorem mem_blk (t : Fin cfg0.N) (i : S500000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v27).slice (win0_5.rect t)).set ↔ _
  rw [View.set_slice_whole, Rect.mem_set_unit]
  exact Iff.rfl

/-- The 125 blocks tile the output array: row r lies in the block of point r / 4000. -/
theorem cover (i : S500000x128.Idx) : ∃ t : Fin cfg0.N, (cfg0.win 5).flush t = true ∧ i ∈ ((cfg0.win 5).blk t).view.set := by
  have hi0 : (i 0).val < 500000 := (i 0).isLt
  have hi1 : (i 1).val < 128 := (i 1).isLt
  have hN : (i 0).val / 4000 < cfg0.N := by rw [show cfg0.N = 125 from N_0]; omega
  refine ⟨⟨(i 0).val / 4000, hN⟩, flush0_5 _, ?_⟩
  rw [mem_blk]
  obtain ⟨-, -, -, -, -, -, -, -, -, -, e0, e1⟩ := idx_facts ⟨(i 0).val / 4000, hN⟩
  intro a
  match a with
  | ⟨0, _⟩ =>
    show win0_5.index ⟨(i 0).val / 4000, hN⟩ (0 : Fin 2) * 4000 ≤ (i 0).val ∧ (i 0).val < win0_5.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, hN⟩ (1 : Fin 2) * 128 ≤ (i 1).val ∧ (i 1).val < win0_5.index ⟨(i 0).val / 4000, hN⟩ (1 : Fin 2) * 128 + 128
    rw [e1]; omega

/-- THE OUTPUT ARRAY after the run: the kernel's arrangement of the arrays the region finds. -/
theorem final (c : Dev nD) : (dats m 0 c).arrAt 5 cfg0.N
    = Cert.Compose.composed (V m c main_arg1) (V m c main_arg3) (V m c main_v0) (V m c main_v1) (V m c main_v26) :=
  (dats m 0 c).arrAt_eq_of_cover 5 _ (fun t _ => flushed_eq m c t) cover

end Cert.KernelIdeal.Blocks

end
-- ==== Proof.Reshaped.lean ====
/-
  The two reshaped input arrays of the kernel's host prologue, read at an index.

  The gate vector (length 500000) is viewed as a one-column matrix, and the knowledge-base array
  (500000 × 128 × 2) is flattened to 500000 × 256. Both are row-major reshapes: entry (v, z) of the
  column is entry v of the vector, and entry (v, r) of the flattened array is entry (v, r / 2, r mod 2)
  of the three-axis array, since (v · 128 + r / 2) · 2 + r mod 2 = v · 256 + r.
-/
import proofs.«112718_j79628693667922_1_alg».proof.Proof.Gen.KernelIdeal.Frame
import Idealize.ShloMosaic.Lib.ValueIdx
import Idealize.ShloMosaic.Lib.StableHlo.Run
import Idealize.ShloMosaic.Lib.Pipeline.Value

noncomputable section

namespace Cert.KernelIdeal.Reshaped

open Cert.KernelIdeal Cert.KernelIdeal.Gen Idealize.ShloMosaic Idealize.ShloMosaic.ValueIdx Idealize.ShloMosaic.TcCoe Idealize.SL.Sem

/-- A vector cast to a one-column matrix: entry (v, z) is entry v. -/
theorem col_apply (x : S500000.Idx → EReal) (h : S500000.ShapeCasts S500000x1) (v : Fin 500000) (z : Fin 1) :
    shapeCast S500000x1 x h (ix2 v z) = x (ix1 v) :=
  shapeCast_apply x h _ _ (by
    have hz : z.val = 0 := by omega
    rw [Shape.rowMajor_val_one, Shape.rowMajor_val_two]
    show v.val = v.val * 1 + z.val
    omega)

/-- A 500000 × 128 × 2 array flattened to 500000 × 256: entry (v, r) is entry (v, r / 2, r mod 2). -/
theorem flat_apply (x : S500000x128x2.Idx → EReal) (h : S500000x128x2.ShapeCasts S500000x256) (v : Fin 500000) (r : Fin 256) :
    shapeCast S500000x256 x h (ix2 v r)
      = x (ix3 v (⟨r.val / 2, by have := r.isLt; omega⟩ : Fin 128) (⟨r.val % 2, Nat.mod_lt _ (by decide)⟩ : Fin 2)) :=
  shapeCast_apply x h _ _ (by
    rw [Shape.rowMajor_val_three, Shape.rowMajor_val_two]
    show (v.val * 128 + r.val / 2) * 2 + r.val % 2 = v.val * 256 + r.val
    omega)

variable (m : (ℓ : Loc nD τ sig) → Buf (Elt Ideal) ℓ)

/-- The one-column gate array the region finds is the launched gate vector, cast. -/
theorem mask2_eq (c : Dev nD) :
    (V m c main_v0 : S500000x1.Idx → EReal)
      = shapeCast S500000x1 (m ((c : Thread nD τ).loc main_arg2) : S500000.Idx → EReal) shapeCasts_S500000_S500000x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem mask2_apply (c : Dev nD) (v : Fin 500000) (z : Fin 1) :
    (V m c main_v0 : S500000x1.Idx → EReal) (ix2 v z) = (m ((c : Thread nD τ).loc main_arg2) : S500000.Idx → EReal) (ix1 v) := by
  rw [mask2_eq m c]
  exact col_apply _ _ v z

/-- The flattened knowledge-base array the region finds is the launched three-axis array, cast. -/
theorem kbflat_eq (c : Dev nD) :
    (V m c main_v1 : S500000x256.Idx → EReal)
      = shapeCast S500000x256 (m ((c : Thread nD τ).loc main_arg5) : S500000x128x2.Idx → EReal)
          shapeCasts_S500000x128x2_S500000x256 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

theorem kbflat_apply (c : Dev nD) (v : Fin 500000) (r : Fin 256) :
    (V m c main_v1 : S500000x256.Idx → EReal) (ix2 v r)
      = (m ((c : Thread nD τ).loc main_arg5) : S500000x128x2.Idx → EReal)
          (ix3 v (⟨r.val / 2, by have := r.isLt; omega⟩ : Fin 128) (⟨r.val % 2, Nat.mod_lt _ (by decide)⟩ : Fin 2)) := by
  rw [kbflat_eq m c]
  exact flat_apply _ _ v r

end Cert.KernelIdeal.Reshaped

end
-- ==== Proof.LibScatterSet.lean ====
/-
  A scatter whose update function returns the update (the element is REPLACED), read at one index.

  The scatter is a left fold over the update positions in row-major order: a position whose result index is
  `i` overwrites the entry at `i` with its update, a position whose result index falls outside is dropped.
  If every position that lands on `i'` carries the same value `v`, and either some position lands on `i'` or
  the operand already holds `v` there, then the result holds `v` at `i'`: whichever position wrote last, it
  wrote `v`; and if none wrote, the operand's entry is still there. One statement covers a hit and a miss.
-/
import Idealize.ShloMosaic.PureOps.ShapeOps

namespace Cert.LibScatterSet

open Idealize.ShloMosaic

variable {α : Type} {w : Nat} {s si u : Shape}

/-- The replacing scatter at an index `i'`: the common value of the updates that land on `i'`, when there is
    one such update or the operand holds that value already. -/
theorem scatter_set_apply (d : ScatterDims s si u) (x : s.Idx → α) (idx : IVec si w) (upd : u.Idx → α)
    (i' : s.Idx) (v : α)
    (hall : ∀ j : u.Idx, d.resultIdx? j idx = some i' → upd j = v)
    (hex : (∃ j : u.Idx, d.resultIdx? j idx = some i') ∨ x i' = v) :
    Host.scatter d (fun _ b => b) x idx upd i' = v := by
  unfold Host.scatter
  have hall' : ∀ n ∈ List.finRange u.numel,
      d.resultIdx? (u.rowMajor.symm n) idx = some i' → upd (u.rowMajor.symm n) = v := fun n _ h => hall _ h
  have hex' : (∃ n ∈ List.finRange u.numel, d.resultIdx? (u.rowMajor.symm n) idx = some i') ∨ x i' = v := by
    rcases hex with ⟨j, hj⟩ | h
    · exact Or.inl ⟨u.rowMajor j, List.mem_finRange _, by rw [Equiv.symm_apply_apply]; exact hj⟩
    · exact Or.inr h
  clear hall hex
  generalize List.finRange u.numel = l at hall' hex'
  induction l generalizing x with
  | nil =>
    rcases hex' with ⟨n, hn, _⟩ | h
    · exact absurd hn List.not_mem_nil
    · exact h
  | cons n l ih =>
    rw [List.foldl_cons]
    refine ih _ (fun n' hn' => hall' n' (List.mem_cons_of_mem _ hn')) ?_
    by_cases hl : ∃ n' ∈ l, d.resultIdx? (u.rowMajor.symm n') idx = some i'
    · exact Or.inl hl
    · refine Or.inr ?_
      cases hr : d.resultIdx? (u.rowMajor.symm n) idx with
      | none =>
        dsimp only
        rcases hex' with ⟨n', hn', h'⟩ | h
        · rcases List.mem_cons.mp hn' with rfl | hn''
          · rw [hr] at h'; exact absurd h' (by simp)
          · exact absurd ⟨n', hn'', h'⟩ hl
        · exact h
      | some i =>
        dsimp only
        by_cases hi : i' = i
        · rw [if_pos hi]
          exact hall' n List.mem_cons_self (by rw [hr, hi])
        · rw [if_neg hi]
          rcases hex' with ⟨n', hn', h'⟩ | h
          · rcases List.mem_cons.mp hn' with rfl | hn''
            · rw [hr] at h'; exact absurd (Option.some.inj h').symm hi
            · exact absurd ⟨n', hn'', h'⟩ hl
          · exact h

end Cert.LibScatterSet
-- ==== Proof.ProjMatrix.lean ====
/-
  The 256 × 128 matrix the kernel multiplies the flattened knowledge-base rows by, read at an index.

  The host builds it before the kernel's region by a replacing scatter into zeros: update r (r < 256) carries
  atten[r mod 2] and goes to the index pair (r, r / 2). So the matrix holds atten[k mod 2] at (k, k / 2) and zero
  elsewhere. The index pairs are a closed integer term (they depend on no input): that update r lands on (r, r / 2),
  and that r mod 2 decides which of the two values update r carries, are decided position by position. The scatter
  itself is read by the general lemma on replacing scatters: the updates that land on (k, q) all carry one value, and
  where none lands the zero operand is still there.
-/
import proofs.«112718_j79628693667922_1_alg».proof.Proof.Gen.KernelIdeal.Frame
import proofs.«112718_j79628693667922_1_alg».proof.Proof.LibScatterSet
import Idealize.ShloMosaic.Lib.ValueIdx
import Idealize.ShloMosaic.Lib.StableHlo.Run
import Idealize.ShloMosaic.PureOps.Ideal.Laws
noncomputable section
namespace Cert.KernelIdeal.ProjMatrix
open Cert.KernelIdeal Cert.KernelIdeal.Gen Idealize.ShloMosaic Idealize.ShloMosaic.ValueIdx Idealize.ShloMosaic.TcCoe Idealize.SL.Sem
open Idealize.ShloMosaic.StableHlo

/-! ## The integer side: the index array as a closed term -/

/-- The positions 0, …, 255 as words. -/
def pos : IVec S256 32 := iotaInDim S256 32 0

/-- A scalar laid along the 256 positions. -/
abbrev lay {α : Type} (x : S_.Idx → α) : S256.Idx → α := broadcastInDim S256 ![] Facts₀.bcast_S_S256 x

/-- The divisor 2, as the outlined functions receive it. -/
def two : IVec S_ 32 := id (constantI S_ 32 2#32)

/-- Floored division of the positions by two, as the outlined function computes it: the truncated quotient, less one
    where the signs of dividend and divisor differ and the remainder is not zero. -/
def half : IVec S256 32 :=
  select
    (andi (cmpi .ne (signi pos) (lay (signi two))) (cmpi .ne (Host.remsi pos (lay two)) (lay (constantI S_ 32 0#32))))
    (subi (Host.divsi pos (lay two)) (lay (constantI S_ 32 1#32)))
    (Host.divsi pos (lay two))

/-- The divisor of the remainder: 2, or 1 were it zero. -/
def modulus : IVec S_ 32 := select (cmpi .eq two (constantI S_ 32 0#32)) (constantI S_ 32 1#32) two

/-- The floored remainder of the positions by two, as the outlined function computes it: the truncated remainder, plus
    the divisor where it is not zero and its sign differs from the divisor's. -/
def parity : IVec S256 32 :=
  select
    (andi (cmpi .ne (cmpi .slt (Host.remsi pos (lay modulus)) (lay (constantI S_ 32 0#32)))
              (lay (cmpi .slt modulus (constantI S_ 32 0#32))))
          (cmpi .ne (Host.remsi pos (lay modulus)) (lay (constantI S_ 32 0#32))))
    (addi (Host.remsi pos (lay modulus)) (lay modulus))
    (Host.remsi pos (lay modulus))

/-- The rows the updates go to: the positions, wrapped were they negative. -/
def rowIx : IVec S256 32 :=
  select (cmpi .slt pos (lay (constantI S_ 32 0#32))) (addi pos (lay (constantI S_ 32 256#32))) pos

/-- The columns the updates go to: the halves, wrapped were they negative. -/
def colIx : IVec S256 32 :=
  select (cmpi .slt half (lay (constantI S_ 32 0#32))) (addi half (lay (constantI S_ 32 128#32))) half

/-- Two columns of words side by side. -/
def cat2 (a b : IVec S256x1 32) : IVec S256x2 32 :=
  concatenate S256x2 1 [⟨S256x1, a⟩, ⟨S256x1, b⟩] Facts₀.concatenates_S256x1_S256x1_S256x2_d1

/-- The scatter's index array: row `r` is (rowIx r, colIx r). -/
def scatIx : IVec S256x2 32 :=
  cat2 (broadcastInDim S256x1 ![0] Facts₀.bcast_S256_S256x1_0 rowIx) (broadcastInDim S256x1 ![0] Facts₀.bcast_S256_S256x1_0 colIx)

/-- Which of the two values update `r` carries: the bit "r mod 2 is zero". -/
def isEven : IVec S256 1 := cmpi .eq parity (lay (constantI S_ 32 0#32))

/-! ## The integer facts, position by position -/

/-- Update `n` lands on (n, n / 2). -/
theorem resultIdx_scatIx : ∀ n : Fin 256,
    scatter_S256x128_S256x2_S256_n_01_01_1.resultIdx? (ix1 n) scatIx
      = some (ix2 n (⟨n.val / 2, by have := n.isLt; omega⟩ : Fin 128)) := by
  decide +kernel

/-- The bit of update `n` is set exactly when n is even. -/
theorem isEven_apply : ∀ n : Fin 256, isEven (ix1 n) = if n.val % 2 = 0 then 1#1 else 0#1 := by
  decide +kernel

/-! ## The float side -/

/-- Entry `j` of a two-vector, cut out as a slice of length one and reshaped to a scalar. -/
theorem slice_scalar {α : Type} (x : S2.Idx → α) (j : Nat) (hj : j < 2) (h1 : S2.Slices ![j] S1)
    (h2 : S1.ShapeCasts S_) (i : S_.Idx) :
    shapeCast S_ (extractStridedSlice S1 ![j] x h1) h2 i = x (ix1 (⟨j, hj⟩ : Fin 2)) := by
  show x _ = x _
  congr 1
  funext a
  obtain rfl : a = 0 := Subsingleton.elim _ _
  apply Fin.ext
  have h := (Shape.reshapeEquiv h2 i ((0 : Fin 1).cast h1.1.symm)).isLt
  change _ < 1 at h
  show j + (Shape.reshapeEquiv h2 i ((0 : Fin 1).cast h1.1.symm)).val = j
  omega

variable (m : (ℓ : Loc nD τ sig) → Buf (Elt Ideal) ℓ)

/-- The update vector: atten[0] where the position is even, atten[1] where it is odd. -/
def upd (c : Dev nD) : S256.Idx → EReal :=
  select isEven
    (lay (shapeCast S_ (extractStridedSlice S1 ![0] (m ((c : Thread nD τ).loc main_arg4) : S2.Idx → EReal) Facts₀.slices_S2_S1_0) Facts₀.shapeCasts_S1_S_))
    (lay (shapeCast S_ (extractStridedSlice S1 ![1] (m ((c : Thread nD τ).loc main_arg4) : S2.Idx → EReal) Facts₀.slices_S2_S1_1) Facts₀.shapeCasts_S1_S_))

/-- Update `n` carries atten[n mod 2]. -/
theorem upd_apply (c : Dev nD) (n : Fin 256) :
    upd m c (ix1 n) = (m ((c : Thread nD τ).loc main_arg4) : S2.Idx → EReal) (ix1 (⟨n.val % 2, Nat.mod_lt _ (by decide)⟩ : Fin 2)) := by
  unfold upd
  rw [select_apply, isEven_apply n]
  show Scalar.select _ (shapeCast S_ _ _ _) (shapeCast S_ _ _ _) = _
  rw [slice_scalar _ 0 (by decide), slice_scalar _ 1 (by decide)]
  rcases Nat.mod_two_eq_zero_or_one n.val with h | h
  · rw [if_pos h, select_one]
    exact congrArg _ (congrArg ix1 (Fin.ext h.symm))
  · rw [if_neg (by omega), select_zero]
    exact congrArg _ (congrArg ix1 (Fin.ext h.symm))

/-- The operand of the scatter: zeros. -/
def zeros : S256x128.Idx → EReal :=
  broadcastInDim S256x128 ![] Facts₀.bcast_S_S256x128 (constant (F := Ideal) S_ .f32 0x00000000#32)

theorem zeros_apply (i : S256x128.Idx) : zeros i = 0 := Ideal.ofBits_zero_f32

set_option maxHeartbeats 2000000 in
/-- The matrix as the host operations' composed term: the replacing scatter of the update vector into zeros at the
    index pairs. -/
theorem proj_eq (c : Dev nD) :
    (V m c main_v26 : S256x128.Idx → EReal)
      = Host.scatter scatter_S256x128_S256x2_S256_n_01_01_1 (fun _ b => b) zeros scatIx (upd m c) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  rw [show ((fun a b => concatenate S256x2 1 [⟨S256x1, a⟩, ⟨S256x1, b⟩] Facts₀.concatenates_S256x1_S256x1_S256x2_d1) :
      IVec S256x1 32 → IVec S256x1 32 → IVec S256x2 32) = cat2 from rfl]
  -- one pass over the operations: with the concatenation named, its two operands are rewritten like any other
  after_results_simp
  rfl

/-- THE MATRIX AT (k, q): atten[k mod 2] on the pairs (k, k / 2), zero elsewhere. -/
theorem proj_apply (c : Dev nD) (k : Fin 256) (q : Fin 128) :
    (V m c main_v26 : S256x128.Idx → EReal) (ix2 k q)
      = if k.val / 2 = q.val then (m ((c : Thread nD τ).loc main_arg4) : S2.Idx → EReal) (ix1 (⟨k.val % 2, Nat.mod_lt _ (by decide)⟩ : Fin 2)) else (0 : EReal) := by
  rw [proj_eq m c]
  refine LibScatterSet.scatter_set_apply _ _ _ _ _ _ ?_ ?_
  · -- every update that lands on (k, q) is update k, and then k / 2 = q
    intro j hj
    obtain ⟨n, rfl⟩ : ∃ n, j = ix1 n := ⟨j 0, eq_ix1 j⟩
    rw [resultIdx_scatIx n] at hj
    have hj' := Option.some.inj hj
    have h0 : n = k := congrFun hj' 0
    have h1 : n.val / 2 = q.val := congrArg Fin.val (congrFun hj' 1)
    subst h0
    rw [if_pos h1, upd_apply]
  · by_cases h : k.val / 2 = q.val
    · refine Or.inl ⟨ix1 k, ?_⟩
      rw [resultIdx_scatIx k]
      exact congrArg some (congrArg (ix2 k) (Fin.ext h))
    · refine Or.inr ?_
      rw [if_neg h, zeros_apply]

end Cert.KernelIdeal.ProjMatrix
end
-- ==== Proof.Table.lean ====
/-
  The kernel's whole run, with its result named.

  After the region the output array holds the composed table (the kernel's arrangement, equal to the specification's
  by the three facts about the host-built arrays), and the host operations after the region pick rows of it by the
  identifiers: an identifier below zero is first raised by the table's height, then each (b, s) reads row ids[b,s].
-/
import proofs.«112718_j79628693667922_1_alg».proof.Proof.Gen.KernelIdeal.Frame
import proofs.«112718_j79628693667922_1_alg».proof.Proof.Spec
import proofs.«112718_j79628693667922_1_alg».proof.Proof.Algebra
import proofs.«112718_j79628693667922_1_alg».proof.Proof.Blocks
import proofs.«112718_j79628693667922_1_alg».proof.Proof.Reshaped
import proofs.«112718_j79628693667922_1_alg».proof.Proof.ProjMatrix
import Idealize.ShloMosaic.Lib.StableHlo.Run
import Idealize.ShloMosaic.Lib.ValueIdx

noncomputable section

namespace Cert.KernelIdeal.Table

open Cert.KernelIdeal Cert.KernelIdeal.Gen Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- Rows of a table picked by identifiers: a negative identifier is raised by 500000 first. -/
def lookup (w : S500000x128.Idx → EReal) (ids : S32x512.Idx → BitVec 32) : S32x512x128.Idx → EReal :=
  Host.gather gather_S500000x128_S32x512x1_S32x512x128_2_0_n_n_0_2_1128 w
    (broadcastInDim S32x512x1 ![0, 1] bcast_S32x512_S32x512x1_0_1
      (select (cmpi .slt ids (broadcastInDim S32x512 ![] bcast_S_S32x512 (constantI S_ 32 0#32)))
        (addi ids (broadcastInDim S32x512 ![] bcast_S_S32x512 (constantI S_ 32 500000#32))) ids))

/-- The output array after the region is the specification's table of the launched arguments. -/
theorem table_eq (c : Dev nD) : (dats m 0 c).arrAt 5 cfg0.N
    = Cert.Compose.weight (m ((c : Thread nD τ).loc main_arg1)) (m ((c : Thread nD τ).loc main_arg2)) (m ((c : Thread nD τ).loc main_arg3))
        (m ((c : Thread nD τ).loc main_arg4)) (m ((c : Thread nD τ).loc main_arg5)) := by
  rw [Cert.KernelIdeal.Blocks.final m c,
    Cert.Compose.composed_eq_weight (V m c main_arg1) (V m c main_arg3) (V m c main_v0) (V m c main_v1) (V m c main_v26)
      (m ((c : Thread nD τ).loc main_arg2)) (m ((c : Thread nD τ).loc main_arg4)) (m ((c : Thread nD τ).loc main_arg5))
      (fun v z => Cert.KernelIdeal.Reshaped.mask2_apply m c v z)
      (fun v r => Cert.KernelIdeal.Reshaped.kbflat_apply m c v r)
      (fun k q => Cert.KernelIdeal.ProjMatrix.proj_apply m c k q),
    V_main_arg1 m c, V_main_arg3 m c]

/-- The valuation the host operations after the region run from reads the identifiers as launched, -/
theorem ids_kept (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne (cfgs 0).spec c (V0 m c) (fun w => (dats m 0 c).arrAt w (cfgs 0).N) main_arg0
    (by exact (by decide : ∀ w, Pipeline.arrRef spec0 w ≠ main_arg0))).trans (V_main_arg0 m c)

/-- and the output window's array at what the run left there. -/
theorem table_read (c : Dev nD) :
    Pipeline.withArrays (cfgs 0).spec c (V0 m c) (fun w => (dats m 0 c).arrAt w (cfgs 0).N) (Proc.devRef .tc main_v27)
      = (dats m 0 c).arrAt 5 cfg0.N :=
  Pipeline.withArrays_arr spec0 launch0.win.arr_inj c (V0 m c) (fun w => (dats m 0 c).arrAt w (cfgs 0).N) 5

/-- The result buffer after the host operations that follow the region, for whatever table the region left. -/
theorem tail_of (c : Dev nD) (W : S500000x128.Idx → EReal) (hW : (dats m 0 c).arrAt 5 cfg0.N = W) :
    Pipeline.afterTail₀ cfgs (dats m) 0 (V0 m) [hostOps1] c main_v34 = lookup W (m ((c : Thread nD τ).loc main_arg0)) := by
  unfold Pipeline.afterTail₀
  show StableHlo.after hostOps1 _ (Proc.devRef .tc main_v34) = _
  after_results
  rw [ids_kept m c, table_read m c, hW]
  rfl

/-- The result buffer after the run: the looked-up rows of the specification's table. -/
theorem tail_eq (c : Dev nD) : Pipeline.afterTail₀ cfgs (dats m) 0 (V0 m) [hostOps1] c main_v34
    = lookup (Cert.Compose.weight (m ((c : Thread nD τ).loc main_arg1)) (m ((c : Thread nD τ).loc main_arg2)) (m ((c : Thread nD τ).loc main_arg3))
        (m ((c : Thread nD τ).loc main_arg4)) (m ((c : Thread nD τ).loc main_arg5))) (m ((c : Thread nD τ).loc main_arg0)) :=
  tail_of m c _ (table_eq m c)

/-- Every weakly fair execution of the kernel's program ends with the result at the looked-up rows of the
    specification's table, the arguments unchanged. -/
theorem run : θ_run defs (onTc (τ := τ) (main (F := Ideal))) ⟨m, fun _ => 0, ρ⟩ (fun r => ∀ c : Dev nD,
      r.2.mem ((c.tc : Thread nD τ).loc main_v34)
        = lookup (Cert.Compose.weight (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v34 (Pipeline.mem_restRefs_of main_v34 (by decide) (by decide))).trans (tail_eq m c),
      (((h c).2 main_arg0 (Pipeline.mem_restRefs_of main_arg0 (by decide) (by decide))).trans (W_main_arg0 m (dats m) c)),
      ((h c).1 0).trans ((((dats m) 0 c).arrAt_in 0 rfl _).trans ((A_eq m c 0).trans (V_main_arg1 m c))),
      (((h c).2 main_arg2 (Pipeline.mem_restRefs_of main_arg2 (by decide) (by decide))).trans (W_main_arg2 m (dats m) c)),
      ((h c).1 1).trans ((((dats m) 0 c).arrAt_in 1 rfl _).trans ((A_eq m c 1).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Table

end
-- ==== Proof.lean ====
/-
  A sigmoid-gated embedding table, composed once and then looked up.

  For a vocabulary of 500000 rows and 128 features both programs form the table

      weight[v,d] = sw[v,d] · σ(mask[v]) + aw[v,d] + (kb[v,d,0] · atten[0] + kb[v,d,1] · atten[1]),     σ x = 1 / (1 + e^(-x)),

  and return its rows at the identifiers ids[b,s] (32 × 512 of them; an identifier below zero is raised by 500000 first).
  The reference forms the last bracket as a sum over the axis of size 2. The kernel flattens kb to 500000 × 256,
  (v, 2d + j) ↦ kb[v,d,j], builds a 256 × 128 matrix with atten[r mod 2] at (r, r / 2) and zero elsewhere, and multiplies:
  of the 256 terms of the product at (v, d) all but the two with r / 2 = d are x · 0 = 0 — for every extended real x, so
  nothing needs the inputs finite — and the two that remain are the reference's summands with their factors exchanged.
  The kernel runs over 125 grid points of 4000 rows each; point t writes rows [4000 t, 4000 t + 4000), and the blocks tile
  the table. The lookup after the table is the same in both programs and is never opened: both results are the one
  function `lookup` of the one table.

  Modules: Spec (the table, in both arrangements), Algebra (the arrangements agree), RefSpec (the reference's table is the
  specification's), Payload (one grid point at an entry), Blocks (from blocks to the array), Reshaped and ProjMatrix (the
  arrays the host builds before the region, read at an index), Table (the kernel's run with its result named).
-/
import proofs.«112718_j79628693667922_1_alg».proof.Defs
import proofs.«112718_j79628693667922_1_alg».proof.Proof.Gen.Kernel
import proofs.«112718_j79628693667922_1_alg».proof.Proof.Gen.Kernel.Skeleton
import proofs.«112718_j79628693667922_1_alg».proof.Proof.Gen.Kernel.Launch
import proofs.«112718_j79628693667922_1_alg».proof.Proof.Gen.Kernel.Points
import proofs.«112718_j79628693667922_1_alg».proof.Proof.Gen.Kernel.Frame
import proofs.«112718_j79628693667922_1_alg».proof.Proof.Gen.KernelIdeal
import proofs.«112718_j79628693667922_1_alg».proof.Proof.Gen.KernelIdeal.Skeleton
import proofs.«112718_j79628693667922_1_alg».proof.Proof.Gen.KernelIdeal.Launch
import proofs.«112718_j79628693667922_1_alg».proof.Proof.Gen.KernelIdeal.Points
import proofs.«112718_j79628693667922_1_alg».proof.Proof.Gen.KernelIdeal.Frame
import proofs.«112718_j79628693667922_1_alg».proof.Proof.Gen.ReferenceIdeal
import proofs.«112718_j79628693667922_1_alg».proof.Proof.Gen.Pre_finite_inputs
import proofs.«112718_j79628693667922_1_alg».proof.Proof.Gen.ReferenceIdeal.Run
import proofs.«112718_j79628693667922_1_alg».proof.Proof.Gen.ReferenceIdeal.Read
import proofs.«112718_j79628693667922_1_alg».proof.Proof.Spec
import proofs.«112718_j79628693667922_1_alg».proof.Proof.RefSpec
import proofs.«112718_j79628693667922_1_alg».proof.Proof.Table
import Idealize.ShloMosaic.Adequacy
import Idealize.ShloMosaic.Init

noncomputable section

namespace Cert.Proof.Claims

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the looked-up rows of the one table. -/
theorem algebraic : Cert.algebraic_KernelIdeal_ReferenceIdeal := by
  intro m ρ m' ρ' _ hagree
  refine ⟨_, Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq]
  unfold Cert.ReferenceIdeal.Read.val_main_v21
  rw [Cert.ReferenceIdeal.RefSpec.ref_weight, (hagree c).1, (hagree c).2.1, (hagree c).2.2.1, (hagree c).2.2.2.1,
    (hagree c).2.2.2.2.1, (hagree c).2.2.2.2.2]
  rfl

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
